-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x2 : Shape := ⟨2, ![65536, 2]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x2 : S_.BroadcastsInDim S65536x2 (![] : Fin 0 → Fin S65536x2.rank)
  reducesTo_S65536x2_S_d0_1 : S65536x2.ReducesTo [0, 1] S_

variable [Facts]

def fn_part1 {F : FTy → Type} [FloatOps F] (main_arg4 : FVec F S65536x2 .f32) (main_v13 : IVec S_ 1) (main_v16 : IVec S65536x2 1) : IVec S_ 1 :=
  let main_c_5 : IVec S_ 1 := constantI S_ 1 1#1
  let main_v17 : IVec S_ 1 := (fun x v => Host.reduce IntOp.andi x v reducesTo_S65536x2_S_d0_1 h_S_) main_v16 main_c_5
  let main_v18 : IVec S_ 1 := andi main_v13 main_v17
  let main_v19 : FVec F S65536x2 .f32 := Host.absf main_arg4
  let main_cst_6 : FVec F S_ .f32 := constant S_ .f32 0x7F800000#32
  let main_v20 : FVec F S65536x2 .f32 := broadcastInDim S65536x2 ![] bcast_S_S65536x2 main_cst_6
  let main_v21 : IVec S65536x2 1 := cmpf .olt main_v19 main_v20
  let main_c_7 : IVec S_ 1 := constantI S_ 1 1#1
  let main_v22 : IVec S_ 1 := (fun x v => Host.reduce IntOp.andi x v reducesTo_S65536x2_S_d0_1 h_S_) main_v21 main_c_7
  let main_v23 : IVec S_ 1 := andi main_v18 main_v22
  main_v23

def fn {F : FTy → Type} [FloatOps F] (main_arg0 : FVec F S65536x512 .f32) (main_arg1 : FVec F S65536x512 .f32) (main_arg2 : FVec F S65536x2 .f32) (main_arg3 : FVec F S65536x2 .f32) (main_arg4 : FVec F S65536x2 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x2 .f32 := Host.absf main_arg2
  let main_cst_2 : FVec F S_ .f32 := constant S_ .f32 0x7F800000#32
  let main_v10 : FVec F S65536x2 .f32 := broadcastInDim S65536x2 ![] bcast_S_S65536x2 main_cst_2
  let main_v11 : IVec S65536x2 1 := cmpf .olt main_v9 main_v10
  let main_c_3 : IVec S_ 1 := constantI S_ 1 1#1
  let main_v12 : IVec S_ 1 := (fun x v => Host.reduce IntOp.andi x v reducesTo_S65536x2_S_d0_1 h_S_) main_v11 main_c_3
  let main_v13 : IVec S_ 1 := andi main_v8 main_v12
  let main_v14 : FVec F S65536x2 .f32 := Host.absf main_arg3
  let main_cst_4 : FVec F S_ .f32 := constant S_ .f32 0x7F800000#32
  let main_v15 : FVec F S65536x2 .f32 := broadcastInDim S65536x2 ![] bcast_S_S65536x2 main_cst_4
  let main_v16 : IVec S65536x2 1 := cmpf .olt main_v14 main_v15
  fn_part1 (F := F) main_arg4 main_v13 main_v16
-- ==== Kernel.lean ====
abbrev S65536x512 : Shape := ⟨2, ![65536, 512]⟩
abbrev S65536x2 : Shape := ⟨2, ![65536, 2]⟩
abbrev S1x1 : Shape := ⟨2, ![1, 1]⟩
abbrev S2048x512 : Shape := ⟨2, ![2048, 512]⟩
abbrev S2048x2 : Shape := ⟨2, ![2048, 2]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 7
  | .vmem => 12
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x2, .f32⟩
  | .hbm, ⟨3, _⟩ => ⟨S65536x2, .f32⟩
  | .hbm, ⟨4, _⟩ => ⟨S65536x2, .f32⟩
  | .hbm, ⟨5, _⟩ => ⟨S1x1, .f32⟩
  | .hbm, ⟨6, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x2, .f32⟩
  | .local _ .vmem, ⟨5, _⟩ => ⟨S2048x2, .f32⟩
  | .local _ .vmem, ⟨6, _⟩ => ⟨S2048x2, .f32⟩
  | .local _ .vmem, ⟨7, _⟩ => ⟨S2048x2, .f32⟩
  | .local _ .vmem, ⟨8, _⟩ => ⟨S2048x2, .f32⟩
  | .local _ .vmem, ⟨9, _⟩ => ⟨S2048x2, .f32⟩
  | .local _ .vmem, ⟨10, _⟩ => ⟨S1x1, .f32⟩
  | .local _ .vmem, ⟨11, _⟩ => ⟨S1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v41 : BitVec 1 := Scalar.cmpi .eq arg0 c31_i32
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  inb_S2048x2_S2048x2_0_0 : ∀ a, (![0, 0] : Fin 2 → Nat) a + S2048x2.size a ≤ S2048x2.size a
  h_S2048x2 : 0 < S2048x2.numel
  reduces_S2048x2_S2048 : S2048x2.Reduces [1] S2048
  reduces_S2048x1_S1 : S2048x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2.size a ≤ S65536x2.size a
  hwx0_2 : ∀ i : grid0.Coords, EltTy.bits .f32 = 32 ∨ (Rect.block (s := S65536x2) S2048x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2.size a ≤ S65536x2.size a
  hwx0_3 : ∀ i : grid0.Coords, EltTy.bits .f32 = 32 ∨ (Rect.block (s := S65536x2) S2048x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2.size a ≤ S65536x2.size a
  hwx0_4 : ∀ i : grid0.Coords, EltTy.bits .f32 = 32 ∨ (Rect.block (s := S65536x2) S2048x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S65536x512 : Shape := ⟨2, ![65536, 512]⟩
abbrev S65536x2 : Shape := ⟨2, ![65536, 2]⟩
abbrev S_ : Shape := ⟨0, ![]⟩
abbrev S65536 : Shape := ⟨1, ![65536]⟩

abbrev nBuf : Space → Nat
  | .hbm => 37
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x2, .f32⟩
  | .hbm, ⟨3, _⟩ => ⟨S65536x2, .f32⟩
  | .hbm, ⟨4, _⟩ => ⟨S65536x2, .f32⟩
  | .hbm, ⟨5, _⟩ => ⟨S65536x512, .f32⟩
  | .hbm, ⟨6, _⟩ => ⟨S65536x512, .f32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S65536, .f32⟩
  | .hbm, ⟨11, _⟩ => ⟨S65536, .f32⟩
  | .hbm, ⟨12, _⟩ => ⟨S65536, .f32⟩
  | .hbm, ⟨13, _⟩ => ⟨S65536x2, .f32⟩
  | .hbm, ⟨14, _⟩ => ⟨S65536x2, .f32⟩
  | .hbm, ⟨15, _⟩ => ⟨S_, .f32⟩
  | .hbm, ⟨16, _⟩ => ⟨S65536, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S65536, .f32⟩
  | .hbm, ⟨21, _⟩ => ⟨S65536x512, .i1⟩
  | .hbm, ⟨22, _⟩ => ⟨S_, .i1⟩
  | .hbm, ⟨23, _⟩ => ⟨S65536, .i1⟩
  | .hbm, ⟨24, _⟩ => ⟨S_, .f32⟩
  | .hbm, ⟨25, _⟩ => ⟨S65536, .f32⟩
  | .hbm, ⟨26, _⟩ => ⟨S65536, .f32⟩
  | .hbm, ⟨27, _⟩ => ⟨S65536, .f32⟩
  | .hbm, ⟨28, _⟩ => ⟨S65536, .f32⟩
  | .hbm, ⟨29, _⟩ => ⟨S65536, .f32⟩
  | .hbm, ⟨30, _⟩ => ⟨S_, .f32⟩
  | .hbm, ⟨31, _⟩ => ⟨S_, .f32⟩
  | .hbm, ⟨32, _⟩ => ⟨S65536x2, .f32⟩
  | .hbm, ⟨33, _⟩ => ⟨S65536x2, .f32⟩
  | .hbm, ⟨34, _⟩ => ⟨S_, .f32⟩
  | .hbm, ⟨35, _⟩ => ⟨S_, .f32⟩
  | .hbm, ⟨36, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S_S65536 : S_.BroadcastsInDim S65536 (![] : Fin 0 → Fin S65536.rank)
  reducesTo_S65536x2_S65536_d1 : S65536x2.ReducesTo [1] S65536
  reducesTo_S65536_S_d0 : S65536.ReducesTo [0] S_
  reducesTo_S65536x2_S_d0_1 : S65536x2.ReducesTo [0, 1] S_

variable [Facts₀]

class Facts : Prop extends Facts₀ where

variable [Facts]
-- ==== Proof.Pieces.lean ====
/-
  What one grid point leaves in the one-word accumulator and in the output's staging word, as values.

  The body keeps a running sum in a [1,1] scratch: at the first point it stores zero there, and at every point it reads
  the word back, adds the point's partial sum (the sum over the point's 2048 rows of the row totals) and stores the result;
  at the last point it copies the word into the output block.  So with "step p s" meaning "s plus p":
    first point:   the scratch ends at  step (partial of the point's blocks) zero,
    other points:  the scratch ends at  step (partial of the point's blocks) (what the point before left),
    last point:    the output word ends at the same value as the scratch.
  These hold at every float instance: they only read the body's stores back.
-/
import proofs.«123744_j15839839388182_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point: zero is stored, read back, and the point's partial sum added to it. -/
theorem sout_A (c : Dev nD) (i : grid0.Coords) (a1 : Memref sig .tc .vmem S2048x512 .f32) (h1 : a1.IsWhole) (a2 : Memref sig .tc .vmem S2048x512 .f32) (h2 : a2.IsWhole) (a3 : Memref sig .tc .vmem S2048x2 .f32) (h3 : a3.IsWhole) (a4 : Memref sig .tc .vmem S2048x2 .f32) (h4 : a4.IsWhole) (a5 : Memref sig .tc .vmem S2048x2 .f32) (h5 : a5.IsWhole) (a6 : Memref sig .tc .vmem S1x1 .f32) (h6 : a6.IsWhole) (a7 : Memref sig .tc .vmem S1x1 .f32) (h7 : a7.IsWhole) (hc0 : cond0_0 i) (hc1 : ¬cond0_1 i)
    (x0 x1 : Vec F S2048x512 .f32) (x2 x3 x4 : Vec F S2048x2 .f32) :
    sout0_A_0 c i a1 h1 a2 h2 a3 h3 a4 h4 a5 h5 a6 h6 a7 h7 hc0 hc1 x0 x1 x2 x3 x4 = k0_pay1 (k0_pay3 x0 x1 x2 x3 x4) (k0_pay2 (F := F)) := by
  unfold sout0_A_0
  rw [View.read_writes_eq_canon _ _ _ (scover0_A_0 c i a1 h1 a2 h2 a3 h3 a4 h4 a5 h5 a6 h6 a7 h7 hc0 hc1 x0 x1 x2 x3 x4)]
  unfold kernelRun0_A
  dsimp only
  sl_unfold_words
  rw [View.canon_cons_unit_zero (S := S1x1) hz]
  simp only [View.readAt_eq_ld, h1.read_unread, h2.read_unread, h3.read_unread, h4.read_unread, h5.read_unread, h7.read_unread,
    View.readCov_unit_zero (S := S1x1) _ hz, View.ld_unit_zero (S := S2048x512) hz, View.ld_unit_zero (S := S2048x2) hz, View.ld_unit_zero (S := S1x1) hz]

/-- A middle point: the partial sum is added to what the point before left. -/
theorem sout_B (c : Dev nD) (i : grid0.Coords) (a1 : Memref sig .tc .vmem S2048x512 .f32) (h1 : a1.IsWhole) (a2 : Memref sig .tc .vmem S2048x512 .f32) (h2 : a2.IsWhole) (a3 : Memref sig .tc .vmem S2048x2 .f32) (h3 : a3.IsWhole) (a4 : Memref sig .tc .vmem S2048x2 .f32) (h4 : a4.IsWhole) (a5 : Memref sig .tc .vmem S2048x2 .f32) (h5 : a5.IsWhole) (a6 : Memref sig .tc .vmem S1x1 .f32) (h6 : a6.IsWhole) (a7 : Memref sig .tc .vmem S1x1 .f32) (h7 : a7.IsWhole) (hc0 : ¬cond0_0 i) (hc1 : ¬cond0_1 i)
    (x0 x1 : Vec F S2048x512 .f32) (x2 x3 x4 : Vec F S2048x2 .f32) (xs0 : Vec F S1x1 .f32) :
    sout0_B_0 c i a1 h1 a2 h2 a3 h3 a4 h4 a5 h5 a6 h6 a7 h7 hc0 hc1 x0 x1 x2 x3 x4 xs0 = k0_pay1 (k0_pay3 x0 x1 x2 x3 x4) xs0 := by
  unfold sout0_B_0
  rw [View.read_writes_eq_canon _ _ _ (scover0_B_0 c i a1 h1 a2 h2 a3 h3 a4 h4 a5 h5 a6 h6 a7 h7 hc0 hc1 x0 x1 x2 x3 x4 xs0)]
  unfold kernelRun0_B
  dsimp only
  sl_unfold_words
  rw [View.canon_unit_zero hz]
  simp only [View.readAt_eq_ld, h1.read_unread, h2.read_unread, h3.read_unread, h4.read_unread, h5.read_unread, h7.read_unread,
    View.readCov_unit_zero (S := S1x1) _ hz, View.ld_unit_zero (S := S2048x512) hz, View.ld_unit_zero (S := S2048x2) hz, View.ld_unit_zero (S := S1x1) hz]

/-- The last point does the same to the scratch … -/
theorem sout_C (c : Dev nD) (i : grid0.Coords) (a1 : Memref sig .tc .vmem S2048x512 .f32) (h1 : a1.IsWhole) (a2 : Memref sig .tc .vmem S2048x512 .f32) (h2 : a2.IsWhole) (a3 : Memref sig .tc .vmem S2048x2 .f32) (h3 : a3.IsWhole) (a4 : Memref sig .tc .vmem S2048x2 .f32) (h4 : a4.IsWhole) (a5 : Memref sig .tc .vmem S2048x2 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i)
    (x0 x1 : Vec F S2048x512 .f32) (x2 x3 x4 : Vec F S2048x2 .f32) (xs0 : Vec F S1x1 .f32) :
    sout0_C_0 c i a1 h1 a2 h2 a3 h3 a4 h4 a5 h5 a6 h6 a7 h7 hc0 hc1 x0 x1 x2 x3 x4 xs0 = k0_pay1 (k0_pay3 x0 x1 x2 x3 x4) xs0 := by
  unfold sout0_C_0
  rw [View.read_writes_eq_canon _ _ _ (scover0_C_0 c i a1 h1 a2 h2 a3 h3 a4 h4 a5 h5 a6 h6 a7 h7 hc0 hc1 x0 x1 x2 x3 x4 xs0)]
  unfold kernelRun0_C
  dsimp only
  sl_unfold_words
  rw [View.canon_unit_zero hz]
  simp only [View.readAt_eq_ld, h1.read_unread, h2.read_unread, h3.read_unread, h4.read_unread, h5.read_unread, h7.read_unread,
    View.readCov_unit_zero (S := S1x1) _ hz, View.ld_unit_zero (S := S2048x512) hz, View.ld_unit_zero (S := S2048x2) hz, View.ld_unit_zero (S := S1x1) hz]

/-- … and copies the scratch word into the output block. -/
theorem out_C (c : Dev nD) (i : grid0.Coords) (a1 : Memref sig .tc .vmem S2048x512 .f32) (h1 : a1.IsWhole) (a2 : Memref sig .tc .vmem S2048x512 .f32) (h2 : a2.IsWhole) (a3 : Memref sig .tc .vmem S2048x2 .f32) (h3 : a3.IsWhole) (a4 : Memref sig .tc .vmem S2048x2 .f32) (h4 : a4.IsWhole) (a5 : Memref sig .tc .vmem S2048x2 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i)
    (x0 x1 : Vec F S2048x512 .f32) (x2 x3 x4 : Vec F S2048x2 .f32) (xs0 : Vec F S1x1 .f32) :
    out0_C_5 c i a1 h1 a2 h2 a3 h3 a4 h4 a5 h5 a6 h6 a7 h7 hc0 hc1 x0 x1 x2 x3 x4 xs0 = k0_pay1 (k0_pay3 x0 x1 x2 x3 x4) xs0 := by
  unfold out0_C_5
  rw [View.read_writes_eq_canon _ _ _ (cover0_C_5 c i a1 h1 a2 h2 a3 h3 a4 h4 a5 h5 a6 h6 a7 h7 hc0 hc1 x0 x1 x2 x3 x4 xs0)]
  unfold kernelRun0_C
  dsimp only
  sl_unfold_words
  rw [View.canon_unit_zero hz]
  simp only [View.readAt_eq_ld, h1.read_unread, h2.read_unread, h3.read_unread, h4.read_unread, h5.read_unread, h7.read_unread,
    View.readCov_unit_zero (S := S1x1) _ hz, View.ld_unit_zero (S := S2048x512) hz, View.ld_unit_zero (S := S2048x2) hz, View.ld_unit_zero (S := S1x1) hz]

end Cert.KernelIdeal.Pieces

end
-- ==== Proof.Spec.lean ====
/-
  The mathematics both programs compute, stated once over plain row functions on the extended reals.

  For a row pair (a, b) of length n the squared distance is Σₖ (aₖ - bₖ)², and the distance is its square root after the
  shared epsilon has been added.  A row of the loss is (d(x1,x2) - d(y1,y2))² divided by a weight that is 1 when a one-bit
  test says the two long rows agree, and d(x1,x2) otherwise; the row's total adds the squared distance of (y1, yp1).
  The result is the sum of the row totals over all 65536 rows.

  One side tests "the rows agree" by asking whether the squared distance is zero, the other by comparing the rows entry
  by entry and folding the answers with "and".  On FINITE rows these are the same bit: a sum of squares of reals is zero
  exactly when every difference is zero (eqBit_eq_fold).  Everything else is re-association of sums in a commutative monoid:
  the rows grouped in 32 blocks of 2048 (sum_blocks), and a sum of row-wise sums of two terms split in two (ref_total).
-/
import Idealize.ShloMosaic.PureOps.Ideal
import Idealize.ShloMosaic.PureOps.Ideal.Laws
import Idealize.ShloMosaic.Lib.ValueIdx
import Idealize.ShloMosaic.Lib.ReduceAll

noncomputable section

open scoped BigOperators

namespace Cert.Siamese

open Idealize.ShloMosaic Idealize.ShloMosaic.ValueIdx

/-- The squared Euclidean distance of two rows. -/
def sumsq {n : Nat} (a b : Fin n → EReal) : EReal := ∑ k : Fin n, (a k - b k) * (a k - b k)

/-- Their distance, the shared epsilon under the root. -/
def rowDist {n : Nat} (a b : Fin n → EReal) : EReal := Ideal.sqrt (sumsq a b + Ideal.ofBits .f32 0x358637BD#32)

/-- One row of the loss: the squared difference of the two distances over the weight the bit selects. -/
def rowLoss (bit : BitVec 1) (a b : Fin 512 → EReal) (u v : Fin 2 → EReal) : EReal :=
  Ideal.div ((rowDist a b - rowDist u v) * (rowDist a b - rowDist u v)) (Scalar.select bit (Ideal.ofBits .f32 0x3F800000#32) (rowDist a b))

/-- "The long rows agree", asked of their squared distance. -/
def eqBit (a b : Fin 512 → EReal) : BitVec 1 := Ideal.cmp .oeq (sumsq a b) (Ideal.ofBits .f32 0x00000000#32)

/-- A row's total: its loss plus the squared distance of the ground-truth pair. -/
def rowTotal (a b : Fin 512 → EReal) (u v w : Fin 2 → EReal) : EReal :=
  rowLoss (eqBit a b) a b u v + sumsq u w

/-- Row i of a two-axis array. -/
def row {n : Nat} (X : (⟨2, ![65536, n]⟩ : Shape).Idx → EReal) (i : Fin 65536) : Fin n → EReal := fun k => X (ix2 i k)

/-- THE RESULT: the row totals summed over all rows. -/
def total (X1 X2 : (⟨2, ![65536, 512]⟩ : Shape).Idx → EReal) (Y1 Y2 YP : (⟨2, ![65536, 2]⟩ : Shape).Idx → EReal) : EReal :=
  ∑ i : Fin 65536, rowTotal (row X1 i) (row X2 i) (row Y1 i) (row Y2 i) (row YP i)

/-! ## One-bit words -/

theorem bit_ext : ∀ x y : BitVec 1, (x = 1#1 ↔ y = 1#1) → x = y := by decide

theorem andi_one_iff : ∀ c d : BitVec 1, IntOp.andi c d = 1#1 ↔ c = 1#1 ∧ d = 1#1 := by decide

/-- An ordered-equal comparison of extended reals answers 1 exactly at equal operands. -/
theorem cmp_oeq_eq_one (x y : EReal) : Ideal.cmp .oeq x y = 1#1 ↔ x = y := by
  unfold Ideal.cmp
  by_cases h : x = y
  · simp [h]
  · simp [h]

/-- A fold of one-bit words by "and" from 1 is 1 exactly when every word is. -/
theorem fold_andi_eq_one {ι : Type} [DecidableEq ι] (s : Finset ι) (g : ι → BitVec 1) :
    s.fold IntOp.andi 1#1 g = 1#1 ↔ ∀ k ∈ s, g k = 1#1 := by
  refine Finset.induction_on s ?_ ?_
  · simp
  · intro a s ha ih
    rw [Finset.fold_insert ha, andi_one_iff, ih, Finset.forall_mem_insert]

/-! ## A sum of squares of reals vanishes only with every difference -/

theorem sumsq_eq_zero_iff {n : Nat} (a b : Fin n → EReal) (ha : ∀ k, ∃ r : ℝ, a k = (r : EReal))
    (hb : ∀ k, ∃ r : ℝ, b k = (r : EReal)) : sumsq a b = 0 ↔ ∀ k, a k = b k := by
  choose ra hra using ha
  choose rb hrb using hb
  have e : ∀ k, (a k - b k) * (a k - b k) = (((ra k - rb k) * (ra k - rb k) : ℝ) : EReal) := fun k => by
    rw [hra, hrb]; norm_cast
  unfold sumsq
  simp only [e]
  rw [Finset.sum_eq_zero_iff_of_nonneg (fun k _ => by exact_mod_cast mul_self_nonneg (ra k - rb k))]
  constructor
  · intro h k
    have h1 := h k (Finset.mem_univ _)
    have h2 : (ra k - rb k) * (ra k - rb k) = 0 := by exact_mod_cast h1
    have h3 : ra k - rb k = 0 := mul_self_eq_zero.mp h2
    rw [hra, hrb]
    exact congrArg _ (by linarith)
  · intro h k _
    have h1 : ra k = rb k := by
      have := h k
      rw [hra, hrb] at this
      exact_mod_cast this
    rw [h1]; simp

/-- On finite rows the two tests of "the rows agree" are one bit. -/
theorem eqBit_eq_fold (a b : Fin 512 → EReal) (ha : ∀ k, ∃ r : ℝ, a k = (r : EReal)) (hb : ∀ k, ∃ r : ℝ, b k = (r : EReal)) :
    Finset.univ.fold IntOp.andi 1#1 (fun k : Fin 512 => Ideal.cmp .oeq (a k) (b k)) = eqBit a b := by
  apply bit_ext
  rw [fold_andi_eq_one]
  unfold eqBit
  rw [cmp_oeq_eq_one, Ideal.ofBits_zero_f32, sumsq_eq_zero_iff a b ha hb]
  exact ⟨fun h k => (cmp_oeq_eq_one _ _).mp (h k (Finset.mem_univ _)), fun h k _ => (cmp_oeq_eq_one _ _).mpr (h k)⟩

/-! ## Re-grouping the rows -/

/-- Row r of block t (32 blocks of 2048 rows). -/
def blockRow (t : Fin 32) (r : Fin 2048) : Fin 65536 := ⟨2048 * t.val + r.val, by have := t.isLt; have := r.isLt; omega⟩

/-- A sum over the rows is the sum over the blocks of the sums over each block's rows. -/
theorem sum_blocks {M : Type} [AddCommMonoid M] (f : Fin 65536 → M) :
    ∑ i, f i = ∑ t : Fin 32, ∑ r : Fin 2048, f (blockRow t r) := by
  have e := Equiv.sum_comp (finProdFinEquiv (m := 32) (n := 2048)) (fun i : Fin (32 * 2048) => f i)
  rw [Fintype.sum_prod_type] at e
  refine e.symm.trans ?_
  refine Finset.sum_congr rfl fun t _ => Finset.sum_congr rfl fun r _ => congrArg f (Fin.ext ?_)
  show (finProdFinEquiv (t, r)).val = 2048 * t.val + r.val
  rw [finProdFinEquiv_apply_val]
  show r.val + 2048 * t.val = 2048 * t.val + r.val
  omega

/-- A rank-1 index is its coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The other grouping: a sum of all row losses from zero, plus a sum of all ground-truth squares from zero, is the sum of
    the row totals. -/
theorem ref_total (L : (⟨1, ![65536]⟩ : Shape).Idx → EReal) (D : (⟨2, ![65536, 2]⟩ : Shape).Idx → EReal) :
    ((0 : EReal) + ∑ j, L j) + ((0 : EReal) + ∑ j, D j) = ∑ i : Fin 65536, (L (ix1 i) + ∑ k : Fin 2, D (ix2 i k)) := by
  rw [zero_add, zero_add, sum_idx1, sum_idx2, ← Finset.sum_add_distrib]

end Cert.Siamese

end
-- ==== Proof.KPayload.lean ====
/-
  The body's arithmetic at the ideal values, read at its one index: the partial sum a grid point adds to the accumulator
  is the sum, over the 2048 rows of the point's blocks, of the row totals of the specification.

  The body works on whole blocks: it subtracts and squares entrywise, sums along the lanes (one number per row, kept as a
  one-column block), adds the epsilon, takes roots, compares the long rows' squared distance with zero and selects the
  weight, divides, adds the short rows' ground-truth squares, and finally sums the column over the rows.  Read at row r
  every step is the row-wise step of the specification on the r-th rows of the blocks.
-/
import proofs.«123744_j15839839388182_1_alg».proof.Proof.Gen.KernelIdeal.Skeleton
import proofs.«123744_j15839839388182_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.Siamese

/-- A row vector kept as a one-column block reads its row. -/
theorem col_apply (v : FVec Ideal S2048 .f32) (r : Fin 2048) :
    shapeCast S2048x1 v shapeCasts_S2048_S2048x1 (ix2 r (0 : Fin 1)) = v (ix1 r) := by
  refine shapeCast_apply v shapeCasts_S2048_S2048x1 _ _ ?_
  rw [Shape.rowMajor_val_one, Shape.rowMajor_val_two]
  show r.val = r.val * 1 + 0
  omega

/-- A one-entry vector kept as a [1,1] block reads its entry. -/
theorem cell_apply (v : FVec Ideal S1 .f32) (j : S1x1.Idx) :
    shapeCast S1x1 v shapeCasts_S1_S1x1 j = v (ix1 (0 : Fin 1)) := by
  refine shapeCast_apply v shapeCasts_S1_S1x1 _ _ ?_
  rw [Shape.rowMajor_val_one, Shape.rowMajor_val_two]
  have h0 : (j 0).val = 0 := by have := (j 0).isLt; simp at this; omega
  have h1 : (j 1).val = 0 := by have := (j 1).isLt; simp at this; omega
  show (0 : Nat) = (j 0).val * 1 + (j 1).val
  omega

/-- The lane sum of a wide block at row r. -/
theorem rowsum_wide (v : FVec Ideal S2048x512 .f32) (hφ : FKind.Formats .f32) (hacc : (0x00000000#32 : BitVec 32) = 0x00000000#32) (r : Fin 2048) :
    multiReduction .add [1] S2048 v 0x00000000#32 reduces_S2048x512_S2048 hφ hacc (ix1 r) = ∑ k : Fin 512, v (ix2 r k) :=
  (Ideal.multiReduction_add_single v 0x00000000#32 reduces_S2048x512_S2048 hφ hacc (ix1 r)).trans
    (Finset.sum_congr rfl fun k _ => congrArg v (funext fun a => Fin.ext (by match a with | ⟨0, _⟩ => rfl | ⟨1, _⟩ => rfl)))

/-- The lane sum of a narrow block at row r. -/
theorem rowsum_narrow (v : FVec Ideal S2048x2 .f32) (hφ : FKind.Formats .f32) (hacc : (0x00000000#32 : BitVec 32) = 0x00000000#32) (r : Fin 2048) :
    multiReduction .add [1] S2048 v 0x00000000#32 reduces_S2048x2_S2048 hφ hacc (ix1 r) = ∑ k : Fin 2, v (ix2 r k) :=
  (Ideal.multiReduction_add_single v 0x00000000#32 reduces_S2048x2_S2048 hφ hacc (ix1 r)).trans
    (Finset.sum_congr rfl fun k _ => congrArg v (funext fun a => Fin.ext (by match a with | ⟨0, _⟩ => rfl | ⟨1, _⟩ => rfl)))

/-- The sum of a one-column block over its rows. -/
theorem colsum (v : FVec Ideal S2048x1 .f32) (hφ : FKind.Formats .f32) (hacc : (0x00000000#32 : BitVec 32) = 0x00000000#32) :
    multiReduction .add [0] S1 v 0x00000000#32 reduces_S2048x1_S1 hφ hacc (ix1 (0 : Fin 1)) = ∑ r : Fin 2048, v (ix2 r (0 : Fin 1)) :=
  (Ideal.multiReduction_add_single v 0x00000000#32 reduces_S2048x1_S1 hφ hacc (ix1 (0 : Fin 1))).trans
    (Finset.sum_congr rfl fun k _ => congrArg v (funext fun a => Fin.ext (by match a with | ⟨0, _⟩ => rfl | ⟨1, _⟩ => rfl)))

theorem sqrt_apply {s : Shape} (v : FVec Ideal s .f32) (i : s.Idx) : sqrt v i = Ideal.sqrt (v i) := rfl

/-- THE PARTIAL SUM of a grid point, from its five blocks. -/
theorem pay3_apply (x0 x1 : FVec Ideal S2048x512 .f32) (x2 x3 x4 : FVec Ideal S2048x2 .f32) (j : S1x1.Idx) :
    k0_pay3 (F := Ideal) x0 x1 x2 x3 x4 j
      = ∑ r : Fin 2048, rowTotal (fun k => x0 (ix2 r k)) (fun k => x1 (ix2 r k)) (fun k => x2 (ix2 r k)) (fun k => x3 (ix2 r k)) (fun k => x4 (ix2 r k)) := by
  unfold k0_pay3 rowTotal rowLoss eqBit rowDist sumsq
  refine (cell_apply _ j).trans ?_
  refine (colsum _ _ _).trans ?_
  refine Finset.sum_congr rfl fun r _ => ?_
  simp only [addf_apply, divf_apply, mulf_apply, subf_apply, col_apply, rowsum_wide, rowsum_narrow, sqrt_apply,
    select_apply, cmpf_apply, broadcast_apply, Ideal.cmpf_def, Ideal.ofBits_def]
  rw [rowsum_wide, rowsum_narrow, rowsum_narrow]
  simp only [mulf_apply, subf_apply]

end Cert.KernelIdeal.Payload

end
-- ==== Proof.KValue.lean ====
/-
  What the kernel's run leaves in its result, at any float instance and then at the ideal values.

  The grid has 32 points; point t stages rows 2048·t … 2048·t + 2047 of each argument.  The scratch word after point n
  is the running sum  acc n  (zero plus the first partial sum, then each next partial sum added: acc), by induction on the
  point over the three cases of the body; the last point copies it into the output block, the one write-back of the run,
  whose block is the whole [1,1] array.  The host line after the region reshapes that array to a scalar.
  At the ideal values the running sum is the sum of the partial sums in any grouping, each partial sum is the sum of its
  rows' totals, and a block's row r at point t is row 2048·t + r of the array: so the result is the specification's total.
-/
import proofs.«123744_j15839839388182_1_alg».proof.Proof.Pieces
import proofs.«123744_j15839839388182_1_alg».proof.Proof.KPayload
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Pieces Cert.KernelIdeal.Payload Cert.Siamese Idealize.ShloMosaic.ValueIdx

section AnyInstance

variable {F : FTy → Type} [FloatOps F]
variable (m : (ℓ : Loc nD τ sig) → Buf (Elt F) ℓ) (ρ : Dev nD → PrngReg)

/-- The five blocks point t stages, at their literal types. -/
abbrev blk0 (c : Dev nD) (t : Fin cfg0.N) : Vec F S2048x512 .f32 := iblk m c 0 t
abbrev blk1 (c : Dev nD) (t : Fin cfg0.N) : Vec F S2048x512 .f32 := iblk m c 1 t
abbrev blk2 (c : Dev nD) (t : Fin cfg0.N) : Vec F S2048x2 .f32 := iblk m c 2 t
abbrev blk3 (c : Dev nD) (t : Fin cfg0.N) : Vec F S2048x2 .f32 := iblk m c 3 t
abbrev blk4 (c : Dev nD) (t : Fin cfg0.N) : Vec F S2048x2 .f32 := iblk m c 4 t

/-- The partial sum point t adds. -/
def part (c : Dev nD) (t : Fin cfg0.N) : Vec F S1x1 .f32 :=
  k0_pay3 (blk0 m c t) (blk1 m c t) (blk2 m c t) (blk3 m c t) (blk4 m c t)

/-- The running sum after point n. -/
def acc (c : Dev nD) : (n : ℕ) → n < cfg0.N → Vec F S1x1 .f32
  | 0, h => k0_pay1 (part m c ⟨0, h⟩) (k0_pay2 (F := F))
  | n + 1, h => k0_pay1 (part m c ⟨n + 1, h⟩) (acc c n (Nat.lt_of_succ_lt h))

/-- After every point the scratch holds the running sum; after the last point so does the output's staging word. -/
theorem outs_eq (c : Dev nD) : ∀ (n : ℕ) (h : n < cfg0.N),
    (outsAt0 m c n h).2 = acc m c n h ∧ (n = 31 → (outsAt0 m c n h).1 = acc m c n h)
  | 0, h => by
    have e := outsAt0_A m c ⟨0, h⟩ rfl (by dsimp only; omega)
    refine ⟨?_, fun h31 => absurd h31 (by decide)⟩
    rw [e]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) _ _
      (iblk m c 0 ⟨0, h⟩) (iblk m c 1 ⟨0, h⟩) (iblk m c 2 ⟨0, h⟩) (iblk m c 3 ⟨0, h⟩) (iblk m c 4 ⟨0, h⟩)
  | n + 1, h => by
    have hN : cfg0.N = 32 := N_0
    have ih := (outs_eq c n (Nat.lt_of_succ_lt h)).1
    have h0 : ¬(⟨n + 1, h⟩ : Fin cfg0.N).val % 32 = 0 := by dsimp only; omega
    by_cases h1 : (⟨n + 1, h⟩ : Fin cfg0.N).val % 32 = 31
    · have e := outsAt0_C m c ⟨n + 1, h⟩ h0 h1
      rw [e]
      dsimp only
      refine ⟨?_, fun _ => ?_⟩
      · refine (sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _
          (iblk m c 0 ⟨n + 1, h⟩) (iblk m c 1 ⟨n + 1, h⟩) (iblk m c 2 ⟨n + 1, h⟩) (iblk m c 3 ⟨n + 1, h⟩) (iblk m c 4 ⟨n + 1, h⟩) _).trans ?_
        exact congrArg (k0_pay1 (part m c ⟨n + 1, h⟩)) ih
      · refine (out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _
          (iblk m c 0 ⟨n + 1, h⟩) (iblk m c 1 ⟨n + 1, h⟩) (iblk m c 2 ⟨n + 1, h⟩) (iblk m c 3 ⟨n + 1, h⟩) (iblk m c 4 ⟨n + 1, h⟩) _).trans ?_
        exact congrArg (k0_pay1 (part m c ⟨n + 1, h⟩)) ih
    · have e := outsAt0_B m c ⟨n + 1, h⟩ h0 h1
      rw [e]
      dsimp only
      refine ⟨?_, fun h31 => absurd (by dsimp only; omega) h1⟩
      refine (sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _
          (iblk m c 0 ⟨n + 1, h⟩) (iblk m c 1 ⟨n + 1, h⟩) (iblk m c 2 ⟨n + 1, h⟩) (iblk m c 3 ⟨n + 1, h⟩) (iblk m c 4 ⟨n + 1, h⟩) _).trans ?_
      exact congrArg (k0_pay1 (part m c ⟨n + 1, h⟩)) ih

theorem lastLt : 31 < cfg0.N := by rw [show cfg0.N = 32 from N_0]; decide

/-- The last grid point. -/
abbrev tLast : Fin cfg0.N := ⟨31, lastLt⟩

/-- What the run leaves in the [1,1] result array: the running sum after the last point. -/
abbrev res (c : Dev nD) : Buf (Elt F) ((c : Thread nD τ).loc main_v0) := acc m c 31 lastLt

/-- The one write-back, at the last point, writes the running sum: the block is the whole [1,1] array. -/
theorem flushed_eq (c : Dev nD) (t : Fin cfg0.N) (hf : (cfg0.win 5).flush t = true) :
    (dats m 0 c).flushed 5 t = ((cfg0.win 5).blk t).view.read (Elt F) (res m c) := by
  have hN : cfg0.N = 32 := N_0
  have h31 : t.val = 31 := by have := (flush0_5 t).mp hf; have := t.isLt; omega
  obtain rfl : t = tLast := Fin.ext h31
  show (cfg0.win 5).cut (grid0.coords tLast) ((dats m 0 c).after 5 tLast) = _
  rw [show (dats m 0 c).after 5 tLast = res m c from (after0_5 m c tLast).trans ((outs_eq m c 31 lastLt).2 rfl)]
  have hz' : (fun a => win0_5.index tLast a * main_v0.ty.shape.size a) = fun _ => 0 := funext fun a => by fin_cases a <;> decide
  exact (Memref.read_access_unit_zero (Elt F) main_v0 hz' (fun a => by rw [congrFun hz' a]; simp) (res m c)).symm

/-- So the result array ends at the running sum after the last point. -/
theorem final5 (c : Dev nD) : (dats m 0 c).arrAt 5 cfg0.N = res m c :=
  (dats m 0 c).arrAt_eq_of_cover 5 (res m c) (flushed_eq m c) fun i =>
    ⟨tLast, (flush0_5 tLast).mpr rfl, by
      show i ∈ ((View.whole main_v0).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- The host line after the region: the scalar result is the [1,1] array reshaped. -/
theorem tail_eq (c : Dev nD) :
    Pipeline.afterTail₀ cfgs (dats m) 0 (V0 m) [hostOps1] c main_v1 = shapeCast S_ (res m c) shapeCasts_S1x1_S_ := by
  unfold Pipeline.afterTail₀
  show StableHlo.after hostOps1 _ (Proc.devRef .tc main_v1) = _
  after_results
  have e := (Pipeline.withArrays_arr spec0 launch0.win.arr_inj c (V0 m c) (fun w => (dats m 0 c).arrAt w cfg0.N) 5).trans (final5 m c)
  refine funext fun i => ?_
  refine Eq.trans ?_ (congrFun (congrArg (fun x => shapeCast S_ x shapeCasts_S1x1_S_) e) i)
  rfl

/-- THE RUN, at any float instance: the scalar result is the reshaped running sum, the arguments are unchanged. -/
theorem run_any : θ_run defs (onTc (τ := τ) (main (F := F))) ⟨m, fun _ => 0, ρ⟩ (fun r => ∀ c : Dev nD,
      r.2.mem ((c.tc : Thread nD τ).loc main_v1) = shapeCast S_ (res m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end AnyInstance

/-! ## At the ideal values -/

section AtIdeal

variable (m : (ℓ : Loc nD τ sig) → Buf (Elt Ideal) ℓ) (ρ : Dev nD → PrngReg)

/-- One accumulation step: the stored word is the loaded word plus the partial sum. -/
theorem pay1_apply (p s : FVec Ideal S1x1 .f32) (j : S1x1.Idx) : k0_pay1 p s j = s j + p j := by
  unfold k0_pay1
  rw [shapeCast_self]
  rfl

/-- The reset stores zero. -/
theorem pay2_apply (j : S1x1.Idx) : k0_pay2 (F := Ideal) j = 0 := by
  unfold k0_pay2
  rw [shapeCast_self]
  exact Ideal.ofBits_zero_f32

/-- The partial sums read at the one index, extended by zero past the grid so that they can be summed over a range. -/
def partAt (c : Dev nD) (j : S1x1.Idx) (t : ℕ) : EReal := if ht : t < cfg0.N then part m c ⟨t, ht⟩ j else 0

/-- The running sum after point n is the sum of the partial sums of points 0 … n. -/
theorem acc_apply (c : Dev nD) (j : S1x1.Idx) : ∀ (n : ℕ) (h : n < cfg0.N), acc m c n h j = ∑ t ∈ Finset.range (n + 1), partAt m c j t
  | 0, h => by
    rw [Finset.sum_range_one]
    unfold partAt
    rw [dif_pos h]
    show k0_pay1 (part m c ⟨0, h⟩) (k0_pay2 (F := Ideal)) j = _
    rw [pay1_apply, pay2_apply, zero_add]
  | n + 1, h => by
    rw [Finset.sum_range_succ, ← acc_apply c j n (Nat.lt_of_succ_lt h)]
    show k0_pay1 (part m c ⟨n + 1, h⟩) (acc m c n (Nat.lt_of_succ_lt h)) j = _
    rw [pay1_apply]
    unfold partAt
    rw [dif_pos h]

/-- Point t as a block number. -/
def tb (t : Fin cfg0.N) : Fin 32 := ⟨t.val, lt_of_lt_of_eq t.isLt N_0⟩

/-- The windows' block indices: block t of the rows, block 0 of the lanes — decided over the grid. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Row r of point t's block of the first argument is row 2048·t + r of the array. -/
theorem read0 (c : Dev nD) (t : Fin cfg0.N) (r : Fin 2048) (k : Fin 512) :
    blk0 m c t (ix2 r k) = m ((c : Thread nD τ).loc main_arg0) (ix2 (blockRow (tb t) r) k) := by
  have hi := idx0 t
  show iblk m c 0 t (ix2 r k) = _
  unfold iblk
  rw [View.read_apply]
  show V m c main_arg0 _ = m (c.tc.loc main_arg0) _
  unfold V
  congr 1
  funext a
  apply Fin.ext
  match a with
  | ⟨0, _⟩ => show win0_0.index t 0 * 2048 + 1 * r.val = 2048 * t.val + r.val; rw [hi.1]; omega
  | ⟨1, _⟩ => show win0_0.index t 1 * 512 + 1 * k.val = k.val; rw [hi.2]; omega

theorem read1 (c : Dev nD) (t : Fin cfg0.N) (r : Fin 2048) (k : Fin 512) :
    blk1 m c t (ix2 r k) = m ((c : Thread nD τ).loc main_arg1) (ix2 (blockRow (tb t) r) k) := by
  have hi := idx1 t
  show iblk m c 1 t (ix2 r k) = _
  unfold iblk
  rw [View.read_apply]
  show V m c main_arg1 _ = m (c.tc.loc main_arg1) _
  unfold V
  congr 1
  funext a
  apply Fin.ext
  match a with
  | ⟨0, _⟩ => show win0_1.index t 0 * 2048 + 1 * r.val = 2048 * t.val + r.val; rw [hi.1]; omega
  | ⟨1, _⟩ => show win0_1.index t 1 * 512 + 1 * k.val = k.val; rw [hi.2]; omega

theorem read2 (c : Dev nD) (t : Fin cfg0.N) (r : Fin 2048) (k : Fin 2) :
    blk2 m c t (ix2 r k) = m ((c : Thread nD τ).loc main_arg2) (ix2 (blockRow (tb t) r) k) := by
  have hi := idx2 t
  show iblk m c 2 t (ix2 r k) = _
  unfold iblk
  rw [View.read_apply]
  show V m c main_arg2 _ = m (c.tc.loc main_arg2) _
  unfold V
  congr 1
  funext a
  apply Fin.ext
  match a with
  | ⟨0, _⟩ => show win0_2.index t 0 * 2048 + 1 * r.val = 2048 * t.val + r.val; rw [hi.1]; omega
  | ⟨1, _⟩ => show win0_2.index t 1 * 2 + 1 * k.val = k.val; rw [hi.2]; omega

theorem read3 (c : Dev nD) (t : Fin cfg0.N) (r : Fin 2048) (k : Fin 2) :
    blk3 m c t (ix2 r k) = m ((c : Thread nD τ).loc main_arg3) (ix2 (blockRow (tb t) r) k) := by
  have hi := idx3 t
  show iblk m c 3 t (ix2 r k) = _
  unfold iblk
  rw [View.read_apply]
  show V m c main_arg3 _ = m (c.tc.loc main_arg3) _
  unfold V
  congr 1
  funext a
  apply Fin.ext
  match a with
  | ⟨0, _⟩ => show win0_3.index t 0 * 2048 + 1 * r.val = 2048 * t.val + r.val; rw [hi.1]; omega
  | ⟨1, _⟩ => show win0_3.index t 1 * 2 + 1 * k.val = k.val; rw [hi.2]; omega

theorem read4 (c : Dev nD) (t : Fin cfg0.N) (r : Fin 2048) (k : Fin 2) :
    blk4 m c t (ix2 r k) = m ((c : Thread nD τ).loc main_arg4) (ix2 (blockRow (tb t) r) k) := by
  have hi := idx4 t
  show iblk m c 4 t (ix2 r k) = _
  unfold iblk
  rw [View.read_apply]
  show V m c main_arg4 _ = m (c.tc.loc main_arg4) _
  unfold V
  congr 1
  funext a
  apply Fin.ext
  match a with
  | ⟨0, _⟩ => show win0_4.index t 0 * 2048 + 1 * r.val = 2048 * t.val + r.val; rw [hi.1]; omega
  | ⟨1, _⟩ => show win0_4.index t 1 * 2 + 1 * k.val = k.val; rw [hi.2]; omega

/-- THE VALUE: the running sum after the last point is the specification's total of the argument arrays. -/
theorem res_eq (c : Dev nD) (j : S1x1.Idx) :
    res m c j = total (m ((c : Thread nD τ).loc main_arg0)) (m ((c : Thread nD τ).loc main_arg1))
      (m ((c : Thread nD τ).loc main_arg2)) (m ((c : Thread nD τ).loc main_arg3)) (m ((c : Thread nD τ).loc main_arg4)) := by
  show acc m c 31 lastLt j = _
  rw [acc_apply m c j 31 lastLt, Finset.sum_range (f := partAt m c j)]
  unfold total
  rw [sum_blocks]
  refine Finset.sum_congr rfl fun t _ => ?_
  have ht : t.val < cfg0.N := by rw [show cfg0.N = 32 from N_0]; exact t.isLt
  unfold partAt
  rw [dif_pos ht]
  unfold part
  refine (pay3_apply _ _ _ _ _ j).trans ?_
  refine Finset.sum_congr rfl fun r _ => ?_
  have e0 : (fun k => blk0 m c ⟨t.val, ht⟩ (ix2 r k)) = row (m ((c : Thread nD τ).loc main_arg0)) (blockRow t r) :=
    funext fun k => (read0 m c ⟨t.val, ht⟩ r k).trans rfl
  have e1 : (fun k => blk1 m c ⟨t.val, ht⟩ (ix2 r k)) = row (m ((c : Thread nD τ).loc main_arg1)) (blockRow t r) :=
    funext fun k => (read1 m c ⟨t.val, ht⟩ r k).trans rfl
  have e2 : (fun k => blk2 m c ⟨t.val, ht⟩ (ix2 r k)) = row (m ((c : Thread nD τ).loc main_arg2)) (blockRow t r) :=
    funext fun k => (read2 m c ⟨t.val, ht⟩ r k).trans rfl
  have e3 : (fun k => blk3 m c ⟨t.val, ht⟩ (ix2 r k)) = row (m ((c : Thread nD τ).loc main_arg3)) (blockRow t r) :=
    funext fun k => (read3 m c ⟨t.val, ht⟩ r k).trans rfl
  have e4 : (fun k => blk4 m c ⟨t.val, ht⟩ (ix2 r k)) = row (m ((c : Thread nD τ).loc main_arg4)) (blockRow t r) :=
    funext fun k => (read4 m c ⟨t.val, ht⟩ r k).trans rfl
  rw [e0, e1, e2, e3, e4]

/-- The scalar read off the [1,1] array. -/
theorem scalar_eq (v : FVec Ideal S1x1 .f32) (j : S_.Idx) :
    shapeCast S_ v shapeCasts_S1x1_S_ j = v (ix2 (0 : Fin 1) (0 : Fin 1)) := by
  refine shapeCast_apply v shapeCasts_S1x1_S_ j _ ?_
  rw [Shape.rowMajor_val_two]
  have h1 : (S_.rowMajor j).val < 1 := (S_.rowMajor j).isLt
  show 0 * 1 + 0 = (S_.rowMajor j).val
  omega

/-- THE RUN at the ideal values: the result is the specification's total of the arguments, which end unchanged. -/
theorem run : θ_run defs (onTc (τ := τ) (main (F := Ideal))) ⟨m, fun _ => 0, ρ⟩ (fun r => ∀ c : Dev nD,
      r.2.mem ((c.tc : Thread nD τ).loc main_v1) = (fun _ => total (m ((c : Thread nD τ).loc main_arg0)) (m ((c : Thread nD τ).loc main_arg1))
        (m ((c : Thread nD τ).loc main_arg2)) (m ((c : Thread nD τ).loc main_arg3)) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (funext fun j => (scalar_eq _ j).trans (res_eq m c _)), (h c).2⟩) (run_any m ρ)

end AtIdeal

end Cert.KernelIdeal.Val

end
-- ==== Proof.RefValue.lean ====
/-
  The reference's result, read one operation at a time at the ideal values, is the specification's total — on finite long rows.

  Row by row the reference forms the same squared distances, distances and squared difference as the specification; its
  weight is selected by the bit "every entry of the two long rows compares equal", folded by "and" along the row, which
  on finite rows is the specification's bit (the squared distance is zero).  Its two final sums — all row losses, and all
  ground-truth squares over both axes — each start from zero, and together they are the sum of the row totals.
-/
import proofs.«123744_j15839839388182_1_alg».proof.Proof.RefRead
import proofs.«123744_j15839839388182_1_alg».proof.Proof.Spec
import Idealize.ShloMosaic.Lib.ValueIdx
import Idealize.ShloMosaic.PureOps.Reduce
import Idealize.ShloMosaic.PureOps.Ideal.Laws

noncomputable section

open scoped BigOperators

namespace Cert.ReferenceIdeal.RefVal

open Idealize.ShloMosaic Idealize.ShloMosaic.ValueIdx Cert.ReferenceIdeal Cert.ReferenceIdeal.Gen Cert.ReferenceIdeal.ReadP Cert.Siamese

variable (X1 X2 : (⟨S65536x512, .f32⟩ : BufTy).Contents (Elt Ideal)) (Y1 Y2 YP : (⟨S65536x2, .f32⟩ : BufTy).Contents (Elt Ideal))

theorem idx_wide (i : Fin 65536) (k : Fin 512) : idx_main_v2 (ix1 i) k = ix2 i k :=
  funext fun a => Fin.ext (by match a with | ⟨0, _⟩ => rfl | ⟨1, _⟩ => rfl)

theorem idx_narrow (i : Fin 65536) (k : Fin 2) : idx_main_v8 (ix1 i) k = ix2 i k :=
  funext fun a => Fin.ext (by match a with | ⟨0, _⟩ => rfl | ⟨1, _⟩ => rfl)

/-- The long rows' squared distance. -/
theorem v2_row (i : Fin 65536) : val_main_v2 (F := Ideal) X1 X2 (ix1 i) = sumsq (row X1 i) (row X2 i) := by
  rw [val_main_v2_apply]
  unfold sumsq row
  rw [val_main_cst_apply, Ideal.ofBits_def, Ideal.ofBits_zero_f32, zero_add]
  refine Finset.sum_congr rfl fun k _ => ?_
  rw [val_main_v1_apply, val_main_v0_apply, idx_wide i k]
  rfl

/-- The short rows' squared distance. -/
theorem v8_row (i : Fin 65536) : val_main_v8 (F := Ideal) Y1 Y2 (ix1 i) = sumsq (row Y1 i) (row Y2 i) := by
  rw [val_main_v8_apply]
  unfold sumsq row
  rw [val_main_cst_1_apply, Ideal.ofBits_def, Ideal.ofBits_zero_f32, zero_add]
  refine Finset.sum_congr rfl fun k _ => ?_
  rw [val_main_v7_apply, val_main_v6_apply, idx_narrow i k]
  rfl

/-- The long rows' distance. -/
theorem v5_row (i : Fin 65536) : val_main_v5 (F := Ideal) X1 X2 (ix1 i) = rowDist (row X1 i) (row X2 i) := by
  rw [val_main_v5_apply, val_main_v4_apply, v2_row, val_main_v3_apply, val_main_cst_0_apply]
  rfl

/-- The short rows' distance. -/
theorem v11_row (i : Fin 65536) : val_main_v11 (F := Ideal) Y1 Y2 (ix1 i) = rowDist (row Y1 i) (row Y2 i) := by
  rw [val_main_v11_apply, val_main_v10_apply, v8_row, val_main_v9_apply, val_main_cst_2_apply]
  rfl

/-- The reference's bit: the entrywise comparisons of the long rows folded by "and". -/
theorem v13_row (i : Fin 65536) :
    val_main_v13 (F := Ideal) X1 X2 (ix1 i)
      = Finset.univ.fold IntOp.andi 1#1 (fun k : Fin 512 => Ideal.cmp .oeq (row X1 i k) (row X2 i k)) := by
  unfold val_main_v13
  rw [Host.reduce_eq_fold_single IntOp.andi _ _ reducesTo_S65536x512_S65536_d1 (by decide) h_S_ (ix1 i)]
  refine congrArg (Finset.univ.fold IntOp.andi _) (funext fun k => ?_)
  show val_main_v12 (F := Ideal) X1 X2 (Shape.Reduces.lift _ (ix1 i) k) = _
  rw [show Shape.Reduces.lift _ (ix1 i) k = ix2 i k from funext fun a => Fin.ext (by match a with | ⟨0, _⟩ => rfl | ⟨1, _⟩ => rfl)]
  rfl

/-- One row of the reference's loss. -/
theorem v17_row (i : Fin 65536) :
    val_main_v17 (F := Ideal) X1 X2 Y1 Y2 (ix1 i)
      = rowLoss (val_main_v13 (F := Ideal) X1 X2 (ix1 i)) (row X1 i) (row X2 i) (row Y1 i) (row Y2 i) := by
  rw [val_main_v17_apply, val_main_v16_apply, val_main_v15_apply, val_main_v14_apply, v5_row, v11_row,
    val_main_call0_v0_apply, val_main_cst_3_apply]
  rfl

/-- One entry of the ground-truth squares. -/
theorem v20_entry (i : Fin 65536) (k : Fin 2) :
    val_main_v20 (F := Ideal) Y1 YP (ix2 i k) = (row Y1 i k - row YP i k) * (row Y1 i k - row YP i k) := by
  rw [val_main_v20_apply, val_main_v19_apply]
  rfl

/-- THE REFERENCE'S RESULT on finite long rows. -/
theorem result_eq (h1 : ∀ j, ∃ r : ℝ, X1 j = (r : EReal)) (h2 : ∀ j, ∃ r : ℝ, X2 j = (r : EReal)) (j : S_.Idx) :
    val_main_v22 (F := Ideal) X1 X2 Y1 Y2 YP j = total X1 X2 Y1 Y2 YP := by
  rw [val_main_v22_apply, val_main_v18_apply, val_main_v21_apply, val_main_cst_4_apply, val_main_cst_5_apply,
    Ideal.ofBits_def, Ideal.ofBits_zero_f32]
  refine (ref_total _ _).trans ?_
  unfold total
  refine Finset.sum_congr rfl fun i _ => ?_
  rw [v17_row, v13_row, eqBit_eq_fold (row X1 i) (row X2 i) (fun k => h1 _) (fun k => h2 _)]
  unfold rowTotal sumsq
  refine congrArg _ (Finset.sum_congr rfl fun k _ => ?_)
  exact v20_entry Y1 YP i k

end Cert.ReferenceIdeal.RefVal

end
-- ==== Proof.Finite.lean ====
/-
  From the precondition to real numbers: where "every float input is finite" holds, every entry of the two long arrays
  is a real number.

  The precondition is a conjunction of five "all entries satisfy |x| < +inf" tests, each a reduction of one-bit words by
  "and" to a single word.  A conjunction that is 1 has both conjuncts 1; a reduction by "and" that is 1 met only 1s; and
  an extended real whose absolute value is below the top element is neither infinity, hence a real.
-/
import proofs.«123744_j15839839388182_1_alg».proof.Defs
import proofs.«123744_j15839839388182_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Idealize.SL.Sem Cert.Pre_finite_inputs Cert.Pre_finite_inputs.Gen

instance : Subsingleton S_.Idx := ⟨fun a b => funext fun d => d.elim0⟩

/-- The f32 pattern of +inf denotes the top element. -/
theorem inf_eq_top : Ideal.ofBits .f32 0x7F800000#32 = ⊤ := by simp [Ideal.ofBits, Ideal.ieee]

/-- An extended real whose absolute value is below +inf is a real number. -/
theorem real_of_lt_inf (x : EReal) (h : Ideal.cmp .olt (max x (-x)) (Ideal.ofBits .f32 0x7F800000#32) = 1#1) :
    ∃ r : ℝ, x = (r : EReal) := by
  rw [inf_eq_top] at h
  have hlt : max x (-x) < ⊤ := by
    by_contra hn
    unfold Ideal.cmp at h
    simp [hn] at h
  induction x using EReal.rec with
  | bot => simp at hlt
  | coe r => exact ⟨r, rfl⟩
  | top => simp at hlt

/-- One conjunct of the precondition, for a long array: if the "all finite" word is 1, every entry is real. -/
theorem real_of_all_wide (x : FVec Ideal S65536x512 .f32)
    (e : Host.reduce IntOp.andi
      (cmpf .olt (Host.absf x) (broadcastInDim S65536x512 ![] bcast_S_S65536x512 (constant (F := Ideal) S_ .f32 0x7F800000#32)))
      (constantI S_ 1 1#1) reducesTo_S65536x512_S_d0_1 h_S_ ValueIdx.ix0 = 1#1) :
    ∀ j, ∃ r : ℝ, x j = (r : EReal) := by
  intro j
  have hj := Host.reduce_andi_all _ _ _ _ _ e j
  apply real_of_lt_inf
  have hb : broadcastInDim S65536x512 ![] bcast_S_S65536x512 (constant (F := Ideal) S_ .f32 0x7F800000#32) j
      = Ideal.ofBits .f32 0x7F800000#32 :=
    broadcastInDim_apply _ bcast_S_S65536x512 _ j ValueIdx.ix0 (fun a => a.elim0)
  rw [← hb]
  exact hj

/-- Under the precondition the two long argument arrays hold real numbers. -/
theorem finite01 (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ j, ∃ r : ℝ, m ((c.tc : Thread Cert.KernelIdeal.nD Cert.KernelIdeal.τ).loc Cert.KernelIdeal.main_arg0) j = (r : EReal))
    ∧ (∀ j, ∃ r : ℝ, m ((c.tc : Thread Cert.KernelIdeal.nD Cert.KernelIdeal.τ).loc Cert.KernelIdeal.main_arg1) j = (r : EReal)) := by
  have h0 := congrFun (hpre c) ValueIdx.ix0
  dsimp only [Cert.Pre_finite_inputs.fn, Cert.Pre_finite_inputs.fn_part1] at h0
  have h1 := (IntOp.andi_eq_one.mp h0).1
  have h2 := (IntOp.andi_eq_one.mp h1).1
  have h3 := (IntOp.andi_eq_one.mp h2).1
  have h4 := IntOp.andi_eq_one.mp h3
  exact ⟨real_of_all_wide _ h4.1, real_of_all_wide _ h4.2⟩

end Cert.Finite

end
-- ==== Proof.lean ====
/-
  The kernel and its reference compute one number from five arrays (x1, x2 of 65536 rows by 512; y1, y2, yp1 of 65536 rows by 2):
  for every row the squared difference of the two row distances  d(x1,x2) = sqrt(Σ(x1 - x2)² + ε)  and  d(y1,y2),  divided by a
  weight that is 1 when the long rows agree and d(x1,x2) otherwise, plus the squared distance of (y1, yp1); all summed over the rows.

  The kernel walks the rows in 32 blocks of 2048, sums each block's row totals and keeps a running sum in a one-word scratch
  (zeroed at the first block, copied to the output at the last); it tests "the long rows agree" by comparing the row's squared
  distance with zero.  The reference forms the row losses and the ground-truth squares as two whole-array sums and adds them; it
  tests agreement entry by entry.  Over the extended reals sums re-associate freely, so the groupings agree; the two tests agree on
  finite rows, because a sum of squares of reals vanishes only when every term does — this is the one place the precondition
  (every input finite) is used.

  Proof/Spec.lean states the total and proves the two laws; Proof/Pieces.lean and Proof/KPayload.lean read the kernel body's stores
  and arithmetic; Proof/KValue.lean carries the running sum across the grid and reads the result array; Proof/RefValue.lean reads the
  reference's operations; Proof/Finite.lean turns the precondition into "the long arrays hold reals".  The frames of the two kernel
  programs are the generated ones; the reference's frame is its run with the value dropped; nothing was idealized, so the
  idealization claim is trivial.
-/
import proofs.«123744_j15839839388182_1_alg».proof.Defs
import proofs.«123744_j15839839388182_1_alg».proof.Proof.Gen.Kernel
import proofs.«123744_j15839839388182_1_alg».proof.Proof.Gen.Kernel.Skeleton
import proofs.«123744_j15839839388182_1_alg».proof.Proof.Gen.Kernel.Launch
import proofs.«123744_j15839839388182_1_alg».proof.Proof.Gen.Kernel.Points
import proofs.«123744_j15839839388182_1_alg».proof.Proof.Gen.Kernel.Frame
import proofs.«123744_j15839839388182_1_alg».proof.Proof.Gen.KernelIdeal
import proofs.«123744_j15839839388182_1_alg».proof.Proof.Gen.KernelIdeal.Skeleton
import proofs.«123744_j15839839388182_1_alg».proof.Proof.Gen.KernelIdeal.Launch
import proofs.«123744_j15839839388182_1_alg».proof.Proof.Gen.KernelIdeal.Points
import proofs.«123744_j15839839388182_1_alg».proof.Proof.Gen.KernelIdeal.Frame
import proofs.«123744_j15839839388182_1_alg».proof.Proof.Gen.ReferenceIdeal
import proofs.«123744_j15839839388182_1_alg».proof.Proof.Gen.Pre_finite_inputs
import proofs.«123744_j15839839388182_1_alg».proof.Proof.KValue
import proofs.«123744_j15839839388182_1_alg».proof.Proof.RefValue
import proofs.«123744_j15839839388182_1_alg».proof.Proof.Finite
import Idealize.ShloMosaic.Adequacy
import Idealize.ShloMosaic.Init

noncomputable section

namespace Cert.Proof

open Idealize.ShloMosaic Idealize.SL.Sem Cert.Siamese

/-- The word-level kernel runs and keeps its arguments. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is a straight line of host operations: its run, with the value forgotten. -/
theorem frame_ri : Cert.frame_ReferenceIdeal := fun m ρ _ =>
  (θ_run Cert.ReferenceIdeal.defs _ _).mono (fun _ h c => (h c).2) (Cert.ReferenceIdeal.RunP.run (F := Ideal) m ρ)

/-- No operation was rewritten for the ideal reading. -/
theorem preserves : Cert.preserves_Kernel_KernelIdeal := trivial

/-- Both programs end at the total of the row totals: the kernel whatever the inputs, the reference on finite long rows. -/
theorem algebraic : Cert.algebraic_KernelIdeal_ReferenceIdeal := by
  intro m ρ m' ρ' hpre hagree
  refine ⟨fun c => fun _ => total (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Val.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v22_eq, (hagree c).1, (hagree c).2.1, (hagree c).2.2.1, (hagree c).2.2.2.1, (hagree c).2.2.2.2]
  funext j
  exact Cert.ReferenceIdeal.RefVal.result_eq _ _ _ _ _ (Cert.Finite.finite01 m hpre c).1 (Cert.Finite.finite01 m hpre c).2 j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
